-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S4x256 : Shape := ⟨2, ![4, 256]⟩
abbrev S200000 : Shape := ⟨1, ![200000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S4x256 : S_.BroadcastsInDim S4x256 (![] : Fin 0 → Fin S4x256.rank)
  reducesTo_S4x256_S_d0_1 : S4x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg11 : FVec F S256 .f32) (main_arg12 : FVec F S256x256 .f32) (main_arg13 : FVec F S256 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg12
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg8 : FVec F S256x256 .f32) (main_arg9 : FVec F S256 .f32) (main_arg10 : FVec F S256x256 .f32) (main_arg11 : FVec F S256 .f32) (main_arg12 : FVec F S256x256 .f32) (main_arg13 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg10
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg11 main_arg12 main_arg13 main_v33

def fn {F : FTy → Type} [FloatOps F] (main_arg0 : FVec F S50000x256 .f32) (main_arg1 : FVec F S4x256 .f32) (main_arg2 : IVec S200000 32) (main_arg3 : IVec S200000 32) (main_arg4 : IVec S200000 32) (main_arg5 : IVec S200000 32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  let main_v9 : FVec F S256x256 .f32 := Host.absf main_arg6
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_arg11 main_arg12 main_arg13 main_v13 main_v16
-- ==== Kernel.lean ====
abbrev S50000x256 : Shape := ⟨2, ![50000, 256]⟩
abbrev S4x256 : Shape := ⟨2, ![4, 256]⟩
abbrev S200000 : Shape := ⟨1, ![200000]⟩
abbrev S256x256 : Shape := ⟨2, ![256, 256]⟩
abbrev S256 : Shape := ⟨1, ![256]⟩
abbrev S1x256 : Shape := ⟨2, ![1, 256]⟩
abbrev S_ : Shape := ⟨0, ![]⟩
abbrev S200000x1 : Shape := ⟨2, ![200000, 1]⟩
abbrev S200000x256 : Shape := ⟨2, ![200000, 256]⟩
abbrev S50000 : Shape := ⟨1, ![50000]⟩
abbrev S50000x1 : Shape := ⟨2, ![50000, 1]⟩
abbrev S2000x256 : Shape := ⟨2, ![2000, 256]⟩

abbrev nBuf : Space → Nat
  | .hbm => 90
  | .vmem => 19
  | .smem => 0
  | _ => 0

abbrev bufTy : (tb : Table) → Fin (tcTables nBuf tb) → BufTy
  | .hbm, ⟨0, _⟩ => ⟨S50000x256, .f32⟩
  | .hbm, ⟨1, _⟩ => ⟨S4x256, .f32⟩
  | .hbm, ⟨2, _⟩ => ⟨S200000, .i32⟩
  | .hbm, ⟨3, _⟩ => ⟨S200000, .i32⟩
  | .hbm, ⟨4, _⟩ => ⟨S200000, .i32⟩
  | .hbm, ⟨5, _⟩ => ⟨S200000, .i32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S1x256, .f32⟩
  | .hbm, ⟨15, _⟩ => ⟨S256, .f32⟩
  | .hbm, ⟨16, _⟩ => ⟨S_, .i32⟩
  | .hbm, ⟨17, _⟩ => ⟨S200000, .i32⟩
  | .hbm, ⟨18, _⟩ => ⟨S200000, .i1⟩
  | .hbm, ⟨19, _⟩ => ⟨S_, .i32⟩
  | .hbm, ⟨20, _⟩ => ⟨S200000, .i32⟩
  | .hbm, ⟨21, _⟩ => ⟨S200000, .i32⟩
  | .hbm, ⟨22, _⟩ => ⟨S200000, .i32⟩
  | .hbm, ⟨23, _⟩ => ⟨S200000x1, .i32⟩
  | .hbm, ⟨24, _⟩ => ⟨S200000x256, .f32⟩
  | .hbm, ⟨25, _⟩ => ⟨S1x256, .f32⟩
  | .hbm, ⟨26, _⟩ => ⟨S200000x256, .f32⟩
  | .hbm, ⟨27, _⟩ => ⟨S200000x256, .f32⟩
  | .hbm, ⟨28, _⟩ => ⟨S_, .f32⟩
  | .hbm, ⟨29, _⟩ => ⟨S50000x256, .f32⟩
  | .hbm, ⟨30, _⟩ => ⟨S200000x1, .i32⟩
  | .hbm, ⟨31, _⟩ => ⟨S50000x256, .f32⟩
  | .hbm, ⟨32, _⟩ => ⟨S_, .f32⟩
  | .hbm, ⟨33, _⟩ => ⟨S200000, .f32⟩
  | .hbm, ⟨34, _⟩ => ⟨S_, .f32⟩
  | .hbm, ⟨35, _⟩ => ⟨S50000, .f32⟩
  | .hbm, ⟨36, _⟩ => ⟨S200000x1, .i32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x256, .f32⟩
  | .hbm, ⟨44, _⟩ => ⟨S50000x256, .f32⟩
  | .hbm, ⟨45, _⟩ => ⟨S1x256, .f32⟩
  | .hbm, ⟨46, _⟩ => ⟨S256, .f32⟩
  | .hbm, ⟨47, _⟩ => ⟨S_, .i32⟩
  | .hbm, ⟨48, _⟩ => ⟨S200000, .i32⟩
  | .hbm, ⟨49, _⟩ => ⟨S200000, .i1⟩
  | .hbm, ⟨50, _⟩ => ⟨S_, .i32⟩
  | .hbm, ⟨51, _⟩ => ⟨S200000, .i32⟩
  | .hbm, ⟨52, _⟩ => ⟨S200000, .i32⟩
  | .hbm, ⟨53, _⟩ => ⟨S200000, .i32⟩
  | .hbm, ⟨54, _⟩ => ⟨S200000x1, .i32⟩
  | .hbm, ⟨55, _⟩ => ⟨S200000x256, .f32⟩
  | .hbm, ⟨56, _⟩ => ⟨S1x256, .f32⟩
  | .hbm, ⟨57, _⟩ => ⟨S200000x256, .f32⟩
  | .hbm, ⟨58, _⟩ => ⟨S200000x256, .f32⟩
  | .hbm, ⟨59, _⟩ => ⟨S_, .f32⟩
  | .hbm, ⟨60, _⟩ => ⟨S50000x256, .f32⟩
  | .hbm, ⟨61, _⟩ => ⟨S200000x1, .i32⟩
  | .hbm, ⟨62, _⟩ => ⟨S50000x256, .f32⟩
  | .hbm, ⟨63, _⟩ => ⟨S_, .f32⟩
  | .hbm, ⟨64, _⟩ => ⟨S200000, .f32⟩
  | .hbm, ⟨65, _⟩ => ⟨S_, .f32⟩
  | .hbm, ⟨66, _⟩ => ⟨S50000, .f32⟩
  | .hbm, ⟨67, _⟩ => ⟨S200000x1, .i32⟩
  | .hbm, ⟨68, _⟩ => ⟨S50000, .f32⟩
  | .hbm, ⟨69, _⟩ => ⟨S_, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x256, .f32⟩
  | .hbm, ⟨75, _⟩ => ⟨S50000x256, .f32⟩
  | .hbm, ⟨76, _⟩ => ⟨S1x256, .f32⟩
  | .hbm, ⟨77, _⟩ => ⟨S256, .f32⟩
  | .hbm, ⟨78, _⟩ => ⟨S1x256, .f32⟩
  | .hbm, ⟨79, _⟩ => ⟨S256x256, .bf16⟩
  | .hbm, ⟨80, _⟩ => ⟨S256x256, .bf16⟩
  | .hbm, ⟨81, _⟩ => ⟨S256x256, .bf16⟩
  | .hbm, ⟨82, _⟩ => ⟨S256x256, .bf16⟩
  | .hbm, ⟨83, _⟩ => ⟨S4x256, .bf16⟩
  | .hbm, ⟨84, _⟩ => ⟨S1x256, .f32⟩
  | .hbm, ⟨85, _⟩ => ⟨S1x256, .f32⟩
  | .hbm, ⟨86, _⟩ => ⟨S1x256, .f32⟩
  | .hbm, ⟨87, _⟩ => ⟨S1x256, .f32⟩
  | .hbm, ⟨88, _⟩ => ⟨S50000x256, .f32⟩
  | .hbm, ⟨89, _⟩ => ⟨S4x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S256x256, .bf16⟩
  | .local _ .vmem, ⟨10, _⟩ => ⟨S1x256, .f32⟩
  | .local _ .vmem, ⟨11, _⟩ => ⟨S256x256, .bf16⟩
  | .local _ .vmem, ⟨12, _⟩ => ⟨S1x256, .f32⟩
  | .local _ .vmem, ⟨13, _⟩ => ⟨S2000x256, .f32⟩
  | .local _ .vmem, ⟨14, _⟩ => ⟨S2000x256, .f32⟩
  | .local _ .vmem, ⟨15, _⟩ => ⟨S4x256, .bf16⟩
  | .local _ .vmem, ⟨16, _⟩ => ⟨S256x256, .bf16⟩
  | .local _ .vmem, ⟨17, _⟩ => ⟨S1x256, .f32⟩
  | .local _ .vmem, ⟨18, _⟩ => ⟨S4x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_call1_v0 : Ref sig .tc := ⟨.hbm, 70, rfl⟩
abbrev main_call1_v1 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem1_0 : DmaSem sig := 16
abbrev cc1_sem2_0 : DmaSem sig := 17
abbrev cc1_sem3_0 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S4x256_S1x256_1_0 : S4x256.Slices ![1, 0] S1x256
  shapeCasts_S1x256_S256 : S1x256.ShapeCasts S256
  bcast_S_S200000 : S_.BroadcastsInDim S200000 (![] : Fin 0 → Fin S200000.rank)
  bcast_S200000_S200000x1_0 : S200000.BroadcastsInDim S200000x1 (![0] : Fin 1 → Fin S200000x1.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S4x256_S1x256_2_0 : S4x256.Slices ![2, 0] S1x256
  slices_S4x256_S1x256_3_0 : S4x256.Slices ![3, 0] S1x256
  shapeCasts_S256_S1x256 : S256.ShapeCasts S1x256
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S4x256_S4x256_0_0 : ∀ a, (![0, 0] : Fin 2 → Nat) a + S4x256.size a ≤ S4x256.size a
  h_S4x256 : 0 < S4x256.numel
  shapeCasts_S4x256_S4x256 : S4x256.ShapeCasts S4x256
  broadcasts_S1x256_S4x256 : S1x256.Broadcasts S4x256
  gather_S50000x256_S200000x1_S200000x256_1_0_n_n_0_1_1256_wf : GatherDims.WF S50000x256 S200000x1 S200000x256 [1] [0] [] [0] [] 1 ![1, 256]
  scatter_S50000x256_S200000x1_S200000x256_1_0_0_1_wf : ScatterDims.WF S50000x256 S200000x1 S200000x256 [1] [0] [0] 1
  scatter_S50000_S200000x1_S200000_n_0_0_1_wf : ScatterDims.WF S50000 S200000x1 S200000 [] [0] [0] 1
  dot_S2000x256_S256x256_S2000x256_1_0_0_1_n_n_wf : DotDims.WF S2000x256 S256x256 S2000x256 [1] [0] [0] [1] [] []
  dot_S4x256_S256x256_S4x256_1_0_0_1_n_n_wf : DotDims.WF S4x256 S256x256 S4x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x256.size a ≤ S50000x256.size a
  hwx0_10 : ∀ i : grid0.Coords, EltTy.bits .f32 = 32 ∨ (Rect.block (s := S50000x256) S2000x256.size (cc0_transform_10 i) (hinb0_10 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4x256.size a ≤ S4x256.size a
  hwx1_0 : ∀ i : grid1.Coords, EltTy.bits .bf16 = 32 ∨ (Rect.block (s := S4x256) S4x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x256.size a ≤ S4x256.size a
  hwx1_3 : ∀ i : grid1.Coords, EltTy.bits .f32 = 32 ∨ (Rect.block (s := S4x256) S4x256.size (cc1_transform_3 i) (hinb1_3 i)).WholeWords (EltTy.packing .f32)

variable [Facts₀]

def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def scatter_S50000x256_S200000x1_S200000x256_1_0_0_1 : ScatterDims S50000x256 S200000x1 S200000x256 where
  updateWindowDims := [1]
  insertedWindowDims := [0]
  scatterDimsToOperandDims := [0]
  indexVectorDim := 1
  wf := scatter_S50000x256_S200000x1_S200000x256_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S4x256_S256x256_S4x256_1_0_0_1_n_n : DotDims S4x256 S256x256 S4x256 where
  lhsContracting := [1]
  rhsContracting := [0]
  lhsNonContracting := [0]
  rhsNonContracting := [1]
  lhsBatch := []
  rhsBatch := []
  wf := dot_S4x256_S256x256_S4x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v48) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v54) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v50) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v55) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v51) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v56) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v58) S2000x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v53) S4x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v52) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S4x256.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S4x256 : Shape := ⟨2, ![4, 256]⟩
abbrev S200000 : Shape := ⟨1, ![200000]⟩
abbrev S256x256 : Shape := ⟨2, ![256, 256]⟩
abbrev S256 : Shape := ⟨1, ![256]⟩
abbrev S1x256 : Shape := ⟨2, ![1, 256]⟩
abbrev S_ : Shape := ⟨0, ![]⟩
abbrev S200000x1 : Shape := ⟨2, ![200000, 1]⟩
abbrev S200000x256 : Shape := ⟨2, ![200000, 256]⟩
abbrev S50000 : Shape := ⟨1, ![50000]⟩
abbrev S50000x1 : Shape := ⟨2, ![50000, 1]⟩

abbrev nBuf : Space → Nat
  | .hbm => 99
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S4x256, .f32⟩
  | .hbm, ⟨2, _⟩ => ⟨S200000, .i32⟩
  | .hbm, ⟨3, _⟩ => ⟨S200000, .i32⟩
  | .hbm, ⟨4, _⟩ => ⟨S200000, .i32⟩
  | .hbm, ⟨5, _⟩ => ⟨S200000, .i32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S1x256, .f32⟩
  | .hbm, ⟨15, _⟩ => ⟨S256, .f32⟩
  | .hbm, ⟨16, _⟩ => ⟨S_, .i32⟩
  | .hbm, ⟨17, _⟩ => ⟨S200000, .i32⟩
  | .hbm, ⟨18, _⟩ => ⟨S200000, .i1⟩
  | .hbm, ⟨19, _⟩ => ⟨S_, .i32⟩
  | .hbm, ⟨20, _⟩ => ⟨S200000, .i32⟩
  | .hbm, ⟨21, _⟩ => ⟨S200000, .i32⟩
  | .hbm, ⟨22, _⟩ => ⟨S200000, .i32⟩
  | .hbm, ⟨23, _⟩ => ⟨S200000x1, .i32⟩
  | .hbm, ⟨24, _⟩ => ⟨S200000x256, .f32⟩
  | .hbm, ⟨25, _⟩ => ⟨S1x256, .f32⟩
  | .hbm, ⟨26, _⟩ => ⟨S200000x256, .f32⟩
  | .hbm, ⟨27, _⟩ => ⟨S200000x256, .f32⟩
  | .hbm, ⟨28, _⟩ => ⟨S_, .f32⟩
  | .hbm, ⟨29, _⟩ => ⟨S50000x256, .f32⟩
  | .hbm, ⟨30, _⟩ => ⟨S200000x1, .i32⟩
  | .hbm, ⟨31, _⟩ => ⟨S50000x256, .f32⟩
  | .hbm, ⟨32, _⟩ => ⟨S_, .f32⟩
  | .hbm, ⟨33, _⟩ => ⟨S200000, .f32⟩
  | .hbm, ⟨34, _⟩ => ⟨S_, .f32⟩
  | .hbm, ⟨35, _⟩ => ⟨S50000, .f32⟩
  | .hbm, ⟨36, _⟩ => ⟨S200000x1, .i32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S1x256, .f32⟩
  | .hbm, ⟨47, _⟩ => ⟨S50000x256, .f32⟩
  | .hbm, ⟨48, _⟩ => ⟨S50000x256, .f32⟩
  | .hbm, ⟨49, _⟩ => ⟨S1x256, .f32⟩
  | .hbm, ⟨50, _⟩ => ⟨S256, .f32⟩
  | .hbm, ⟨51, _⟩ => ⟨S_, .i32⟩
  | .hbm, ⟨52, _⟩ => ⟨S200000, .i32⟩
  | .hbm, ⟨53, _⟩ => ⟨S200000, .i1⟩
  | .hbm, ⟨54, _⟩ => ⟨S_, .i32⟩
  | .hbm, ⟨55, _⟩ => ⟨S200000, .i32⟩
  | .hbm, ⟨56, _⟩ => ⟨S200000, .i32⟩
  | .hbm, ⟨57, _⟩ => ⟨S200000, .i32⟩
  | .hbm, ⟨58, _⟩ => ⟨S200000x1, .i32⟩
  | .hbm, ⟨59, _⟩ => ⟨S200000x256, .f32⟩
  | .hbm, ⟨60, _⟩ => ⟨S1x256, .f32⟩
  | .hbm, ⟨61, _⟩ => ⟨S200000x256, .f32⟩
  | .hbm, ⟨62, _⟩ => ⟨S200000x256, .f32⟩
  | .hbm, ⟨63, _⟩ => ⟨S_, .f32⟩
  | .hbm, ⟨64, _⟩ => ⟨S50000x256, .f32⟩
  | .hbm, ⟨65, _⟩ => ⟨S200000x1, .i32⟩
  | .hbm, ⟨66, _⟩ => ⟨S50000x256, .f32⟩
  | .hbm, ⟨67, _⟩ => ⟨S_, .f32⟩
  | .hbm, ⟨68, _⟩ => ⟨S200000, .f32⟩
  | .hbm, ⟨69, _⟩ => ⟨S_, .f32⟩
  | .hbm, ⟨70, _⟩ => ⟨S50000, .f32⟩
  | .hbm, ⟨71, _⟩ => ⟨S200000x1, .i32⟩
  | .hbm, ⟨72, _⟩ => ⟨S50000, .f32⟩
  | .hbm, ⟨73, _⟩ => ⟨S_, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000x1, .f32⟩
  | .hbm, ⟨78, _⟩ => ⟨S50000x256, .f32⟩
  | .hbm, ⟨79, _⟩ => ⟨S50000x256, .f32⟩
  | .hbm, ⟨80, _⟩ => ⟨S50000x256, .f32⟩
  | .hbm, ⟨81, _⟩ => ⟨S1x256, .f32⟩
  | .hbm, ⟨82, _⟩ => ⟨S50000x256, .f32⟩
  | .hbm, ⟨83, _⟩ => ⟨S50000x256, .f32⟩
  | .hbm, ⟨84, _⟩ => ⟨S50000x256, .f32⟩
  | .hbm, ⟨85, _⟩ => ⟨S1x256, .f32⟩
  | .hbm, ⟨86, _⟩ => ⟨S256, .f32⟩
  | .hbm, ⟨87, _⟩ => ⟨S1x256, .f32⟩
  | .hbm, ⟨88, _⟩ => ⟨S50000x256, .f32⟩
  | .hbm, ⟨89, _⟩ => ⟨S50000x256, .f32⟩
  | .hbm, ⟨90, _⟩ => ⟨S50000x256, .f32⟩
  | .hbm, ⟨91, _⟩ => ⟨S1x256, .f32⟩
  | .hbm, ⟨92, _⟩ => ⟨S50000x256, .f32⟩
  | .hbm, ⟨93, _⟩ => ⟨S50000x256, .f32⟩
  | .hbm, ⟨94, _⟩ => ⟨S50000x256, .f32⟩
  | .hbm, ⟨95, _⟩ => ⟨S4x256, .f32⟩
  | .hbm, ⟨96, _⟩ => ⟨S1x256, .f32⟩
  | .hbm, ⟨97, _⟩ => ⟨S4x256, .f32⟩
  | .hbm, ⟨98, _⟩ => ⟨S4x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_call1_v0 : Ref sig .tc := ⟨.hbm, 74, rfl⟩
abbrev main_call1_v1 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]

class Facts₀ : Prop where
  slices_S4x256_S1x256_1_0 : S4x256.Slices ![1, 0] S1x256
  shapeCasts_S1x256_S256 : S1x256.ShapeCasts S256
  bcast_S_S200000 : S_.BroadcastsInDim S200000 (![] : Fin 0 → Fin S200000.rank)
  bcast_S200000_S200000x1_0 : S200000.BroadcastsInDim S200000x1 (![0] : Fin 1 → Fin S200000x1.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S1x256_S50000x256_0_1 : S1x256.BroadcastsInDim S50000x256 (![0, 1] : Fin 2 → Fin S50000x256.rank)
  slices_S4x256_S1x256_2_0 : S4x256.Slices ![2, 0] S1x256
  slices_S4x256_S1x256_3_0 : S4x256.Slices ![3, 0] S1x256
  bcast_S1x256_S4x256_0_1 : S1x256.BroadcastsInDim S4x256 (![0, 1] : Fin 2 → Fin S4x256.rank)
  gather_S50000x256_S200000x1_S200000x256_1_0_n_n_0_1_1256_wf : GatherDims.WF S50000x256 S200000x1 S200000x256 [1] [0] [] [0] [] 1 ![1, 256]
  scatter_S50000x256_S200000x1_S200000x256_1_0_0_1_wf : ScatterDims.WF S50000x256 S200000x1 S200000x256 [1] [0] [0] 1
  scatter_S50000_S200000x1_S200000_n_0_0_1_wf : ScatterDims.WF S50000 S200000x1 S200000 [] [0] [0] 1
  dot_S50000x256_S256x256_S50000x256_1_0_0_1_n_n_wf : DotDims.WF S50000x256 S256x256 S50000x256 [1] [0] [0] [1] [] []
  dot_S4x256_S256x256_S4x256_1_0_0_1_n_n_wf : DotDims.WF S4x256 S256x256 S4x256 [1] [0] [0] [1] [] []

variable [Facts₀]

def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def scatter_S50000x256_S200000x1_S200000x256_1_0_0_1 : ScatterDims S50000x256 S200000x1 S200000x256 where
  updateWindowDims := [1]
  insertedWindowDims := [0]
  scatterDimsToOperandDims := [0]
  indexVectorDim := 1
  wf := scatter_S50000x256_S200000x1_S200000x256_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S4x256_S256x256_S4x256_1_0_0_1_n_n : DotDims S4x256 S256x256 S4x256 where
  lhsContracting := [1]
  rhsContracting := [0]
  lhsNonContracting := [0]
  rhsNonContracting := [1]
  lhsBatch := []
  rhsBatch := []
  wf := dot_S4x256_S256x256_S4x256_1_0_0_1_n_n_wf

class Facts : Prop extends Facts₀ where

variable [Facts]
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.KBody.lean ====
/-
  What each of the two kernel bodies stores, read at one entry `(p, q)` at the ideal values.

  The combine body adds, left to right: the first average block times its weight, that weight's bias row, the second
  average block times its weight, its bias row, the block of features less the last relation's embedding row times the
  self weight, and its bias row. A product into the zero accumulator at `(p, q)` is the sum over `k` of
  `left (p, k) * right (k, q)`; a `[1, 256]` row broadcast down the rows is its entry `(0, q)` at every `(p, q)`;
  the reshapes onto the same shape and the changes of float format are the identity on the extended reals.
  The relation body is one such product with its bias row.
-/
import proofs.«167276_j48395691491487_1_alg».proof.Proof.Gen.KernelIdeal.Skeleton
import proofs.«167276_j48395691491487_1_alg».proof.Proof.LibPlainDot
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx
open scoped BigOperators

/-- A `[1, 256]` row broadcast down `M` rows, read at `(p, q)`, is the row's entry `(0, q)`. -/
theorem bcastRow_apply {α : Type} {M : ℕ} (v : (⟨2, ![1, 256]⟩ : Shape).Idx → α)
    (h : (⟨2, ![1, 256]⟩ : Shape).Broadcasts ⟨2, ![M, 256]⟩) (p : Fin M) (q : Fin 256) :
    broadcastTo ⟨2, ![M, 256]⟩ v h (ix2 p q) = v (ix2 0 q) := by
  refine broadcastTo_apply v h (ix2 p q) (ix2 0 q) (fun a => ?_)
  match a with
  | ⟨0, _⟩ => rfl
  | ⟨1, _⟩ => rfl

/-- A change of float format is the identity at the ideal values. -/
theorem truncf_id {s : Shape} {φ ψ : FTy} (a : FVec Ideal s φ) (h : ψ.bits < φ.bits) :
    (truncf ψ a h : FVec Ideal s ψ) = a := rfl

/-- The combine body's stored block at `(p, q)`. -/
theorem combine_apply (v0 : Vec Ideal S2000x256 .f32) (v3 : Vec Ideal S256x256 .bf16) (v6 : Vec Ideal S1x256 .f32)
    (v10 : Vec Ideal S2000x256 .f32) (v13 : Vec Ideal S256x256 .bf16) (v17 : Vec Ideal S1x256 .f32)
    (v21 : Vec Ideal S2000x256 .f32) (v22 : Vec Ideal S1x256 .f32) (v27 : Vec Ideal S256x256 .bf16)
    (v31 : Vec Ideal S1x256 .f32) (p : Fin 2000) (q : Fin 256) :
    k0_pay1 (F := Ideal) v0 v3 v6 v10 v13 v17 v21 v22 v27 v31 (ix2 p q)
      = (((((∑ k : Fin 256, v0 (ix2 p k) * v3 (ix2 k q)) + v6 (ix2 0 q))
          + ∑ k : Fin 256, v10 (ix2 p k) * v13 (ix2 k q)) + v17 (ix2 0 q))
          + ∑ k : Fin 256, (v21 (ix2 p k) - v22 (ix2 0 k)) * v27 (ix2 k q)) + v31 (ix2 0 q) := by
  unfold k0_pay1
  simp only [shapeCast_self, truncf_id, addf_apply,
    Cert.PlainDot.matmul_zero_apply dot_S2000x256_S256x256_S2000x256_1_0_0_1_n_n rfl, bcastRow_apply, subf_apply]

/-- The relation body's stored block at `(p, q)`. -/
theorem rel_apply (v0 : Vec Ideal S4x256 .bf16) (v2 : Vec Ideal S256x256 .bf16) (v5 : Vec Ideal S1x256 .f32)
    (p : Fin 4) (q : Fin 256) :
    k1_pay1 (F := Ideal) v0 v2 v5 (ix2 p q) = (∑ k : Fin 256, v0 (ix2 p k) * v2 (ix2 k q)) + v5 (ix2 0 q) := by
  unfold k1_pay1
  simp only [shapeCast_self, addf_apply,
    Cert.PlainDot.matmul_zero_apply dot_S4x256_S256x256_S4x256_1_0_0_1_n_n rfl, bcastRow_apply]

end Cert.KernelIdeal.Body

end
-- ==== Proof.Spec.lean ====
/-
  The layer's two results, entry by entry, on the extended reals.

  A node's output row is three products of a row with a square weight, each with its bias row added: the two
  neighbourhood averages `a0`, `a1` against `wO`, `wI`, and the node's own features less the last relation's
  embedding `r` against `wS`. Entry `(p, q)` of a product is the sum over `k` of `row p k * w k q` (`rowDot`).
  The tiled program adds the six terms left to right as it meets them (`nodeAt`); the plain program first closes each
  product with its bias and then adds the self term to the sum of the two others (`nodeAtGrouped`). Addition on the
  extended reals is commutative and associative whatever the summands are (no finiteness is asked), so the two orders
  give the same entry: `nodeAt_eq_grouped`.
  The relation embeddings' update is one such product with its bias (`relAt`).
-/
import Idealize.ShloMosaic.Lib.ValueIdx

noncomputable section

namespace Cert.Layer

open Idealize.ShloMosaic Idealize.ShloMosaic.ValueIdx
open scoped BigOperators

/-- Entry `(p, q)` of the product of an `[M, 256]` array with a `[256, 256]` weight: row `p` against column `q`. -/
def rowDot {M : ℕ} (a : (⟨2, ![M, 256]⟩ : Shape).Idx → EReal) (w : (⟨2, ![256, 256]⟩ : Shape).Idx → EReal)
    (p : Fin M) (q : Fin 256) : EReal :=
  ∑ k : Fin 256, a (ix2 p k) * w (ix2 k q)

/-- Two arrays that agree on row `p` have the same row-`p` products. -/
theorem rowDot_congr {M M' : ℕ} (a : (⟨2, ![M, 256]⟩ : Shape).Idx → EReal) (a' : (⟨2, ![M', 256]⟩ : Shape).Idx → EReal)
    (w : (⟨2, ![256, 256]⟩ : Shape).Idx → EReal) (p : Fin M) (p' : Fin M') (q : Fin 256)
    (h : ∀ k : Fin 256, a (ix2 p k) = a' (ix2 p' k)) : rowDot a w p q = rowDot a' w p' q := by
  unfold rowDot
  exact Finset.sum_congr rfl fun k _ => by rw [h k]

section Node

variable (x a0 a1 : (⟨2, ![50000, 256]⟩ : Shape).Idx → EReal) (r : Fin 256 → EReal)
  (wO wI wS : (⟨2, ![256, 256]⟩ : Shape).Idx → EReal) (bO bI bS : Fin 256 → EReal)

/-- The node's own features less the last relation's embedding, column by column. -/
def selfTerm : (⟨2, ![50000, 256]⟩ : Shape).Idx → EReal := fun j => x j - r (j 1)

/-- Entry `(p, q)` of the node output, the six terms added left to right: first product, its bias, second product,
    its bias, self product, its bias. -/
def nodeAt (p : Fin 50000) (q : Fin 256) : EReal :=
  ((((rowDot a0 wO p q + bO q) + rowDot a1 wI p q) + bI q) + rowDot (selfTerm x r) wS p q) + bS q

/-- The same entry with each product closed by its bias first, the self term added to the sum of the two others. -/
def nodeAtGrouped (p : Fin 50000) (q : Fin 256) : EReal :=
  (rowDot (selfTerm x r) wS p q + bS q) + ((rowDot a0 wO p q + bO q) + (rowDot a1 wI p q + bI q))

/-- Regrouping and reordering a sum of six extended reals does not change it. -/
theorem nodeAt_eq_grouped (p : Fin 50000) (q : Fin 256) :
    nodeAt x a0 a1 r wO wI wS bO bI bS p q = nodeAtGrouped x a0 a1 r wO wI wS bO bI bS p q := by
  unfold nodeAt nodeAtGrouped
  ac_rfl

/-- The node output as an array. -/
def nodeOut : (⟨2, ![50000, 256]⟩ : Shape).Idx → EReal := fun i => nodeAt x a0 a1 r wO wI wS bO bI bS (i 0) (i 1)

theorem nodeOut_ix2 (p : Fin 50000) (q : Fin 256) :
    nodeOut x a0 a1 r wO wI wS bO bI bS (ix2 p q) = nodeAt x a0 a1 r wO wI wS bO bI bS p q := rfl

end Node

section Rel

variable (e : (⟨2, ![4, 256]⟩ : Shape).Idx → EReal) (wR : (⟨2, ![256, 256]⟩ : Shape).Idx → EReal) (bR : Fin 256 → EReal)

/-- Entry `(p, q)` of the updated relation embeddings: row `p` against column `q` of the weight, plus the bias. -/
def relAt (p : Fin 4) (q : Fin 256) : EReal := rowDot e wR p q + bR q

/-- The updated relation embeddings as an array. -/
def relOut : (⟨2, ![4, 256]⟩ : Shape).Idx → EReal := fun i => relAt e wR bR (i 0) (i 1)

theorem relOut_ix2 (p : Fin 4) (q : Fin 256) : relOut e wR bR (ix2 p q) = relAt e wR bR p q := rfl

end Rel

end Cert.Layer

end
-- ==== Proof.KValue0.lean ====
/-
  The combine region's output array after its twenty-five grid points.

  Point `t` stages rows `2000 t … 2000 t + 1999` of the three node arrays (the features and the two neighbourhood
  averages) and, whole at every point, the three weights and the four `[1, 256]` rows (the last relation's embedding
  and the three biases); it writes back rows `2000 t …` of the output. So entry `(p, q)` of what point `t` writes is
  entry `(2000 t + p, q)` of ONE array-level function of the arrays as the region finds them — the layer's node
  output `Layer.nodeOut` — and the twenty-five row blocks cover the `50000` rows (row `r` is in block `r / 2000`).
-/
import proofs.«167276_j48395691491487_1_alg».proof.Proof.Gen.KernelIdeal.Frame
import proofs.«167276_j48395691491487_1_alg».proof.Proof.KBody
import proofs.«167276_j48395691491487_1_alg».proof.Proof.Spec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

/-- The stored block's entry `(p, q)` is the node output's entry `(P, q)` as soon as the three row blocks hold row
    `P` of their arrays on their row `p` and the seven whole blocks hold their arrays. -/
theorem entry_of_blocks
    (x a0 a1 : (⟨2, ![50000, 256]⟩ : Shape).Idx → EReal) (rl bO bI bS : (⟨2, ![1, 256]⟩ : Shape).Idx → EReal)
    (wO wI wS : (⟨2, ![256, 256]⟩ : Shape).Idx → EReal)
    (v0 : Vec Ideal S2000x256 .f32) (v3 : Vec Ideal S256x256 .bf16) (v6 : Vec Ideal S1x256 .f32)
    (v10 : Vec Ideal S2000x256 .f32) (v13 : Vec Ideal S256x256 .bf16) (v17 : Vec Ideal S1x256 .f32)
    (v21 : Vec Ideal S2000x256 .f32) (v22 : Vec Ideal S1x256 .f32) (v27 : Vec Ideal S256x256 .bf16)
    (v31 : Vec Ideal S1x256 .f32) (P : Fin 50000) (p : Fin 2000) (q : Fin 256)
    (h0 : ∀ k : Fin 256, v0 (ix2 p k) = a0 (ix2 P k)) (h3 : ∀ k : Fin 256, v3 (ix2 k q) = wO (ix2 k q))
    (h6 : v6 (ix2 0 q) = bO (ix2 0 q))
    (h10 : ∀ k : Fin 256, v10 (ix2 p k) = a1 (ix2 P k)) (h13 : ∀ k : Fin 256, v13 (ix2 k q) = wI (ix2 k q))
    (h17 : v17 (ix2 0 q) = bI (ix2 0 q))
    (h21 : ∀ k : Fin 256, v21 (ix2 p k) = x (ix2 P k)) (h22 : ∀ k : Fin 256, v22 (ix2 0 k) = rl (ix2 0 k))
    (h27 : ∀ k : Fin 256, v27 (ix2 k q) = wS (ix2 k q)) (h31 : v31 (ix2 0 q) = bS (ix2 0 q)) :
    k0_pay1 (F := Ideal) v0 v3 v6 v10 v13 v17 v21 v22 v27 v31 (ix2 p q)
      = Layer.nodeAt x a0 a1 (fun k => rl (ix2 0 k)) wO wI wS (fun k => bO (ix2 0 k)) (fun k => bI (ix2 0 k))
          (fun k => bS (ix2 0 k)) P q := by
  rw [Body.combine_apply]
  unfold Layer.nodeAt Layer.rowDot Layer.selfTerm
  simp only [h0, h3, h6, h10, h13, h17, h21, h22, h27, h31]

variable (V : (c : Dev nD) → (b : Ref sig .tc) → Buf (Elt Ideal) ((c : Thread nD τ).loc b))

theorem hz : (![0, 0] : Fin 2 → Nat) = fun _ => 0 := funext fun a => by fin_cases a <;> rfl

/-- The node output of the arrays as the region finds them. -/
def G (c : Dev nD) : (⟨2, ![50000, 256]⟩ : Shape).Idx → EReal :=
  Layer.nodeOut (V c main_arg0) (V c main_v22) (V c main_v45) (fun k => (V c main_v48 : S1x256.Idx → EReal) (ix2 0 k))
    (V c main_v49) (V c main_v50) (V c main_v51) (fun k => (V c main_v54 : S1x256.Idx → EReal) (ix2 0 k))
    (fun k => (V c main_v55 : S1x256.Idx → EReal) (ix2 0 k)) (fun k => (V c main_v56 : S1x256.Idx → EReal) (ix2 0 k))

/-- The printed index maps over the grid: the three row-blocked inputs and the output sit at block row `t`,
    block column `0`; the seven whole inputs at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_10.index t (0 : Fin 2) = t.val ∧ win0_10.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Row `p` of point `t`'s row block is row `2000 t + p` of the array. -/
def row (t : Fin cfg0.N) (p : Fin 2000) : Fin 50000 :=
  ⟨t.val * 2000 + p.val, by have h := t.isLt; have e : cfg0.N = 25 := N_0; have := p.isLt; omega⟩

/-- Row `p` of window 0's block at point `t` is row `2000 t + p` of its array. -/
theorem read0 (c : Dev nD) (t : Fin cfg0.N) (p : Fin 2000) (k : Fin 256) :
    iblk0 V c 0 t (ix2 p k) = (V c main_arg0 : S50000x256.Idx → EReal) (ix2 (row t p) k) := by
  obtain ⟨e00, e01, e10, e11, e20, e21, -⟩ := idx_facts t
  show (V c main_arg0 : S50000x256.Idx → EReal) (((cfg0.win 0).blk t).view.emb (ix2 p k)) = _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 256 + 1 * k.val = k.val; omega

/-- Row `p` of window 1's block at point `t` is row `2000 t + p` of its array. -/
theorem read1 (c : Dev nD) (t : Fin cfg0.N) (p : Fin 2000) (k : Fin 256) :
    iblk0 V c 1 t (ix2 p k) = (V c main_v22 : S50000x256.Idx → EReal) (ix2 (row t p) k) := by
  obtain ⟨e00, e01, e10, e11, e20, e21, -⟩ := idx_facts t
  show (V c main_v22 : S50000x256.Idx → EReal) (((cfg0.win 1).blk t).view.emb (ix2 p k)) = _
  refine congrArg _ (funext fun a => Fin.ext ?_)
  match a with
  | ⟨0, _⟩ => show win0_1.index t (0 : Fin 2) * 2000 + 1 * p.val = t.val * 2000 + p.val; omega
  | ⟨1, _⟩ => show win0_1.index t (1 : Fin 2) * 256 + 1 * k.val = k.val; omega

/-- Row `p` of window 2's block at point `t` is row `2000 t + p` of its array. -/
theorem read2 (c : Dev nD) (t : Fin cfg0.N) (p : Fin 2000) (k : Fin 256) :
    iblk0 V c 2 t (ix2 p k) = (V c main_v45 : S50000x256.Idx → EReal) (ix2 (row t p) k) := by
  obtain ⟨e00, e01, e10, e11, e20, e21, -⟩ := idx_facts t
  show (V c main_v45 : S50000x256.Idx → EReal) (((cfg0.win 2).blk t).view.emb (ix2 p k)) = _
  refine congrArg _ (funext fun a => Fin.ext ?_)
  match a with
  | ⟨0, _⟩ => show win0_2.index t (0 : Fin 2) * 2000 + 1 * p.val = t.val * 2000 + p.val; omega
  | ⟨1, _⟩ => show win0_2.index t (1 : Fin 2) * 256 + 1 * k.val = k.val; omega

/-- Window 3's block is its whole `[1, 256]` row at every point. -/
theorem read3 (c : Dev nD) (t : Fin cfg0.N) (q : Fin 256) :
    iblk0 V c 3 t (ix2 0 q) = (V c main_v48 : S1x256.Idx → EReal) (ix2 0 q) := by
  obtain ⟨-, -, -, -, -, -, -, -, e30, e31, e40, e41, e50, e51, e60, e61, e70, e71, e80, e81, e90, e91⟩ := idx_facts t
  show (V c main_v48 : S1x256.Idx → EReal) (((cfg0.win 3).blk t).view.emb (ix2 0 q)) = _
  refine congrArg _ (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 256 + 1 * q.val = q.val; omega

/-- Window 4's block is its whole `[256, 256]` array at every point. -/
theorem read4 (c : Dev nD) (t : Fin cfg0.N) (k q : Fin 256) :
    iblk0 V c 4 t (ix2 k q) = (V c main_v49 : S256x256.Idx → EReal) (ix2 k q) := by
  obtain ⟨-, -, -, -, -, -, -, -, e30, e31, e40, e41, e50, e51, e60, e61, e70, e71, e80, e81, e90, e91⟩ := idx_facts t
  show (V c main_v49 : S256x256.Idx → EReal) (((cfg0.win 4).blk t).view.emb (ix2 k q)) = _
  refine congrArg _ (funext fun a => Fin.ext ?_)
  match a with
  | ⟨0, _⟩ => show win0_4.index t (0 : Fin 2) * 256 + 1 * k.val = k.val; omega
  | ⟨1, _⟩ => show win0_4.index t (1 : Fin 2) * 256 + 1 * q.val = q.val; omega

/-- Window 5's block is its whole `[1, 256]` row at every point. -/
theorem read5 (c : Dev nD) (t : Fin cfg0.N) (q : Fin 256) :
    iblk0 V c 5 t (ix2 0 q) = (V c main_v54 : S1x256.Idx → EReal) (ix2 0 q) := by
  obtain ⟨-, -, -, -, -, -, -, -, e30, e31, e40, e41, e50, e51, e60, e61, e70, e71, e80, e81, e90, e91⟩ := idx_facts t
  show (V c main_v54 : S1x256.Idx → EReal) (((cfg0.win 5).blk t).view.emb (ix2 0 q)) = _
  refine congrArg _ (funext fun a => Fin.ext ?_)
  match a with
  | ⟨0, _⟩ => show win0_5.index t (0 : Fin 2) * 1 + 1 * (0 : Fin 1).val = (0 : Fin 1).val; omega
  | ⟨1, _⟩ => show win0_5.index t (1 : Fin 2) * 256 + 1 * q.val = q.val; omega

/-- Window 6's block is its whole `[256, 256]` array at every point. -/
theorem read6 (c : Dev nD) (t : Fin cfg0.N) (k q : Fin 256) :
    iblk0 V c 6 t (ix2 k q) = (V c main_v50 : S256x256.Idx → EReal) (ix2 k q) := by
  obtain ⟨-, -, -, -, -, -, -, -, e30, e31, e40, e41, e50, e51, e60, e61, e70, e71, e80, e81, e90, e91⟩ := idx_facts t
  show (V c main_v50 : S256x256.Idx → EReal) (((cfg0.win 6).blk t).view.emb (ix2 k q)) = _
  refine congrArg _ (funext fun a => Fin.ext ?_)
  match a with
  | ⟨0, _⟩ => show win0_6.index t (0 : Fin 2) * 256 + 1 * k.val = k.val; omega
  | ⟨1, _⟩ => show win0_6.index t (1 : Fin 2) * 256 + 1 * q.val = q.val; omega

/-- Window 7's block is its whole `[1, 256]` row at every point. -/
theorem read7 (c : Dev nD) (t : Fin cfg0.N) (q : Fin 256) :
    iblk0 V c 7 t (ix2 0 q) = (V c main_v55 : S1x256.Idx → EReal) (ix2 0 q) := by
  obtain ⟨-, -, -, -, -, -, -, -, e30, e31, e40, e41, e50, e51, e60, e61, e70, e71, e80, e81, e90, e91⟩ := idx_facts t
  show (V c main_v55 : S1x256.Idx → EReal) (((cfg0.win 7).blk t).view.emb (ix2 0 q)) = _
  refine congrArg _ (funext fun a => Fin.ext ?_)
  match a with
  | ⟨0, _⟩ => show win0_7.index t (0 : Fin 2) * 1 + 1 * (0 : Fin 1).val = (0 : Fin 1).val; omega
  | ⟨1, _⟩ => show win0_7.index t (1 : Fin 2) * 256 + 1 * q.val = q.val; omega

/-- Window 8's block is its whole `[256, 256]` array at every point. -/
theorem read8 (c : Dev nD) (t : Fin cfg0.N) (k q : Fin 256) :
    iblk0 V c 8 t (ix2 k q) = (V c main_v51 : S256x256.Idx → EReal) (ix2 k q) := by
  obtain ⟨-, -, -, -, -, -, -, -, e30, e31, e40, e41, e50, e51, e60, e61, e70, e71, e80, e81, e90, e91⟩ := idx_facts t
  show (V c main_v51 : S256x256.Idx → EReal) (((cfg0.win 8).blk t).view.emb (ix2 k q)) = _
  refine congrArg _ (funext fun a => Fin.ext ?_)
  match a with
  | ⟨0, _⟩ => show win0_8.index t (0 : Fin 2) * 256 + 1 * k.val = k.val; omega
  | ⟨1, _⟩ => show win0_8.index t (1 : Fin 2) * 256 + 1 * q.val = q.val; omega

/-- Window 9's block is its whole `[1, 256]` row at every point. -/
theorem read9 (c : Dev nD) (t : Fin cfg0.N) (q : Fin 256) :
    iblk0 V c 9 t (ix2 0 q) = (V c main_v56 : S1x256.Idx → EReal) (ix2 0 q) := by
  obtain ⟨-, -, -, -, -, -, -, -, e30, e31, e40, e41, e50, e51, e60, e61, e70, e71, e80, e81, e90, e91⟩ := idx_facts t
  show (V c main_v56 : S1x256.Idx → EReal) (((cfg0.win 9).blk t).view.emb (ix2 0 q)) = _
  refine congrArg _ (funext fun a => Fin.ext ?_)
  match a with
  | ⟨0, _⟩ => show win0_9.index t (0 : Fin 2) * 1 + 1 * (0 : Fin 1).val = (0 : Fin 1).val; omega
  | ⟨1, _⟩ => show win0_9.index t (1 : Fin 2) * 256 + 1 * q.val = q.val; omega

/-- Entry `(p, q)` of the output block at point `t` sits at `(2000 t + p, q)` of the output array. -/
theorem emb_out (t : Fin cfg0.N) (p : Fin 2000) (q : Fin 256) :
    ((cfg0.win 10).blk t).view.emb (ix2 p q) = (ix2 (row t p) q : S50000x256.Idx) := by
  obtain ⟨-, -, -, -, -, -, eo0, eo1, -⟩ := idx_facts t
  funext a
  apply Fin.ext
  match a with
  | ⟨0, _⟩ => show win0_10.index t (0 : Fin 2) * 2000 + 1 * p.val = t.val * 2000 + p.val; omega
  | ⟨1, _⟩ => show win0_10.index t (1 : Fin 2) * 256 + 1 * q.val = q.val; omega

/-- WHAT POINT `t` WRITES BACK is block `t` of the node output of the arrays as the region finds them. -/
theorem flushed_eq (c : Dev nD) (t : Fin cfg0.N) :
    (dat0 V c).flushed 10 t = ((cfg0.win 10).blk t).view.read (Elt Ideal) (G V c) := by
  show (cfg0.win 10).cut (grid0.coords t) ((dat0 V c).after 10 t) = _
  rw [after0_10]
  unfold out0_10
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k0_pay1 (F := Ideal) (iblk0 V c 1 t) (iblk0 V c 4 t) (iblk0 V c 5 t) (iblk0 V c 2 t) (iblk0 V c 6 t) (iblk0 V c 7 t)
      (iblk0 V c 0 t) (iblk0 V c 3 t) (iblk0 V c 8 t) (iblk0 V c 9 t) (ix2 p q)
    = G V c (((cfg0.win 10).blk t).view.emb (ix2 p q))
  rw [emb_out]
  exact entry_of_blocks (V c main_arg0) (V c main_v22) (V c main_v45) (V c main_v48) (V c main_v54) (V c main_v55)
    (V c main_v56) (V c main_v49) (V c main_v50) (V c main_v51)
    (iblk0 V c 1 t) (iblk0 V c 4 t) (iblk0 V c 5 t) (iblk0 V c 2 t) (iblk0 V c 6 t) (iblk0 V c 7 t)
    (iblk0 V c 0 t) (iblk0 V c 3 t) (iblk0 V c 8 t) (iblk0 V c 9 t) (row t p) p q
    (fun k => read1 V c t p k) (fun k => read4 V c t k q) (read5 V c t q)
    (fun k => read2 V c t p k) (fun k => read6 V c t k q) (read7 V c t q)
    (fun k => read0 V c t p k) (fun k => read3 V c t k) (fun k => read8 V c t k q) (read9 V c t q)

/-- An index of the output array is in point `t`'s block iff each coordinate is in the block's range on its axis. -/
theorem mem_blk (t : Fin cfg0.N) (i : S50000x256.Idx) :
    i ∈ ((cfg0.win 10).blk t).view.set ↔ ∀ a : Fin 2, win0_10.index t a * S2000x256.size a ≤ (i a).val
      ∧ (i a).val < win0_10.index t a * S2000x256.size a + S2000x256.size a := by
  show i ∈ ((View.whole main_v58).slice (win0_10.rect t)).set ↔ _
  rw [View.set_slice_whole, Rect.mem_set_unit]
  exact Iff.rfl

/-- Row `r` of the output is written by point `r / 2000`. -/
theorem cover (i : S50000x256.Idx) :
    ∃ t : Fin cfg0.N, (cfg0.win 10).flush t = true ∧ i ∈ ((cfg0.win 10).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, -, -, eo0, eo1, -⟩ := idx_facts t
  refine ⟨t, flush0_10 t, ?_⟩
  rw [mem_blk]
  intro a
  match a with
  | ⟨0, _⟩ =>
    show win0_10.index t (0 : Fin 2) * 2000 ≤ (i 0).val ∧ (i 0).val < win0_10.index t (0 : Fin 2) * 2000 + 2000
    omega
  | ⟨1, _⟩ =>
    show win0_10.index t (1 : Fin 2) * 256 ≤ (i 1).val ∧ (i 1).val < win0_10.index t (1 : Fin 2) * 256 + 256
    omega

/-- THE OUTPUT ARRAY after the region: the node output of the arrays as the region finds them. -/
theorem final (c : Dev nD) : (dat0 V c).arrAt 10 cfg0.N = G V c :=
  (dat0 V c).arrAt_eq_of_cover 10 (G V c) (fun t _ => flushed_eq V c t) cover

end Cert.KernelIdeal.Region0

end
-- ==== Proof.KValue1.lean ====
/-
  The relation region's output array after its one grid point.

  The one point stages the relation embeddings, the weight and the bias row whole, and writes the whole `[4, 256]`
  output back: entry `(p, q)` of what it writes is entry `(p, q)` of the updated relation embeddings
  `Layer.relOut` of the arrays as the region finds them, and the one block is the array.
-/
import proofs.«167276_j48395691491487_1_alg».proof.Proof.Gen.KernelIdeal.Frame
import proofs.«167276_j48395691491487_1_alg».proof.Proof.KBody
import proofs.«167276_j48395691491487_1_alg».proof.Proof.Spec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

/-- The stored block's entry `(p, q)` is the updated embeddings' entry `(p, q)` as soon as the three blocks hold their
    arrays. -/
theorem entry_of_blocks
    (e : (⟨2, ![4, 256]⟩ : Shape).Idx → EReal) (wR : (⟨2, ![256, 256]⟩ : Shape).Idx → EReal)
    (bR : (⟨2, ![1, 256]⟩ : Shape).Idx → EReal)
    (v0 : Vec Ideal S4x256 .bf16) (v2 : Vec Ideal S256x256 .bf16) (v5 : Vec Ideal S1x256 .f32) (p : Fin 4) (q : Fin 256)
    (h0 : ∀ k : Fin 256, v0 (ix2 p k) = e (ix2 p k)) (h2 : ∀ k : Fin 256, v2 (ix2 k q) = wR (ix2 k q))
    (h5 : v5 (ix2 0 q) = bR (ix2 0 q)) :
    k1_pay1 (F := Ideal) v0 v2 v5 (ix2 p q) = Layer.relAt e wR (fun k => bR (ix2 0 k)) p q := by
  rw [Body.rel_apply]
  unfold Layer.relAt Layer.rowDot
  simp only [h0, h2, h5]

variable (V : (c : Dev nD) → (b : Ref sig .tc) → Buf (Elt Ideal) ((c : Thread nD τ).loc b))

theorem hz : (![0, 0] : Fin 2 → Nat) = fun _ => 0 := funext fun a => by fin_cases a <;> rfl

/-- The updated relation embeddings of the arrays as the region finds them. -/
def G (c : Dev nD) : (⟨2, ![4, 256]⟩ : Shape).Idx → EReal :=
  Layer.relOut (V c main_v53) (V c main_v52) (fun k => (V c main_v57 : S1x256.Idx → EReal) (ix2 0 k))

/-- The printed index maps at the one point: every window at block `(0, 0)`. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Window 0's block is its whole `[4, 256]` array. -/
theorem read0 (c : Dev nD) (t : Fin cfg1.N) (p : Fin 4) (k : Fin 256) :
    iblk1 V c 0 t (ix2 p k) = (V c main_v53 : S4x256.Idx → EReal) (ix2 p k) := by
  obtain ⟨e00, e01, -⟩ := idx_facts t
  show (V c main_v53 : S4x256.Idx → EReal) (((cfg1.win 0).blk t).view.emb (ix2 p k)) = _
  refine congrArg _ (funext fun a => Fin.ext ?_)
  match a with
  | ⟨0, _⟩ => show win1_0.index t (0 : Fin 2) * 4 + 1 * p.val = p.val; omega
  | ⟨1, _⟩ => show win1_0.index t (1 : Fin 2) * 256 + 1 * k.val = k.val; omega

/-- Window 1's block is its whole `[256, 256]` array. -/
theorem read1 (c : Dev nD) (t : Fin cfg1.N) (k q : Fin 256) :
    iblk1 V c 1 t (ix2 k q) = (V c main_v52 : S256x256.Idx → EReal) (ix2 k q) := by
  obtain ⟨-, -, e10, e11, -⟩ := idx_facts t
  show (V c main_v52 : S256x256.Idx → EReal) (((cfg1.win 1).blk t).view.emb (ix2 k q)) = _
  refine congrArg _ (funext fun a => Fin.ext ?_)
  match a with
  | ⟨0, _⟩ => show win1_1.index t (0 : Fin 2) * 256 + 1 * k.val = k.val; omega
  | ⟨1, _⟩ => show win1_1.index t (1 : Fin 2) * 256 + 1 * q.val = q.val; omega

/-- Window 2's block is its whole `[1, 256]` row. -/
theorem read2 (c : Dev nD) (t : Fin cfg1.N) (q : Fin 256) :
    iblk1 V c 2 t (ix2 0 q) = (V c main_v57 : S1x256.Idx → EReal) (ix2 0 q) := by
  obtain ⟨-, -, -, -, e20, e21, -⟩ := idx_facts t
  show (V c main_v57 : S1x256.Idx → EReal) (((cfg1.win 2).blk t).view.emb (ix2 0 q)) = _
  refine congrArg _ (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 256 + 1 * q.val = q.val; omega

/-- Entry `(p, q)` of the output block sits at `(p, q)` of the output array. -/
theorem emb_out (t : Fin cfg1.N) (p : Fin 4) (q : Fin 256) :
    ((cfg1.win 3).blk t).view.emb (ix2 p q) = (ix2 p q : S4x256.Idx) := by
  obtain ⟨-, -, -, -, -, -, eo0, eo1⟩ := idx_facts t
  funext a
  apply Fin.ext
  match a with
  | ⟨0, _⟩ => show win1_3.index t (0 : Fin 2) * 4 + 1 * p.val = p.val; omega
  | ⟨1, _⟩ => show win1_3.index t (1 : Fin 2) * 256 + 1 * q.val = q.val; omega

/-- WHAT THE POINT WRITES BACK is the block of the updated embeddings of the arrays as the region finds them. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S4x256) hz, View.ld_unit_zero (S := S256x256) hz, View.ld_unit_zero (S := S1x256) hz]
  funext j
  obtain ⟨p, q, rfl⟩ : ∃ (p : Fin 4) (q : Fin 256), j = ix2 p q := ⟨j 0, j 1, eq_ix2 j⟩
  show k1_pay1 (F := Ideal) (iblk1 V c 0 t) (iblk1 V c 1 t) (iblk1 V c 2 t) (ix2 p q)
    = G V c (((cfg1.win 3).blk t).view.emb (ix2 p q))
  rw [emb_out]
  exact entry_of_blocks (V c main_v53) (V c main_v52) (V c main_v57)
    (iblk1 V c 0 t) (iblk1 V c 1 t) (iblk1 V c 2 t) p q
    (fun k => read0 V c t p k) (fun k => read1 V c t k q) (read2 V c t q)

/-- An index of the output array is in the point's block iff each coordinate is in the block's range on its axis. -/
theorem mem_blk (t : Fin cfg1.N) (i : S4x256.Idx) :
    i ∈ ((cfg1.win 3).blk t).view.set ↔ ∀ a : Fin 2, win1_3.index t a * S4x256.size a ≤ (i a).val
      ∧ (i a).val < win1_3.index t a * S4x256.size a + S4x256.size a := by
  show i ∈ ((View.whole main_v59).slice (win1_3.rect t)).set ↔ _
  rw [View.set_slice_whole, Rect.mem_set_unit]
  exact Iff.rfl

/-- The one block is the whole output. -/
theorem cover (i : S4x256.Idx) :
    ∃ t : Fin cfg1.N, (cfg1.win 3).flush t = true ∧ i ∈ ((cfg1.win 3).blk t).view.set := by
  have hi0 : (i 0).val < 4 := (i 0).isLt
  have hi1 : (i 1).val < 256 := (i 1).isLt
  obtain ⟨-, -, -, -, -, -, eo0, eo1⟩ := idx_facts t1_0
  refine ⟨t1_0, flush1_3 t1_0, ?_⟩
  rw [mem_blk]
  intro a
  match a with
  | ⟨0, _⟩ =>
    show win1_3.index t1_0 (0 : Fin 2) * 4 ≤ (i 0).val ∧ (i 0).val < win1_3.index t1_0 (0 : Fin 2) * 4 + 4
    omega
  | ⟨1, _⟩ =>
    show win1_3.index t1_0 (1 : Fin 2) * 256 ≤ (i 1).val ∧ (i 1).val < win1_3.index t1_0 (1 : Fin 2) * 256 + 256
    omega

/-- THE OUTPUT ARRAY after the region: the updated embeddings of the arrays as the region finds them. -/
theorem final (c : Dev nD) : (dat1 V c).arrAt 3 cfg1.N = G V c :=
  (dat1 V c).arrAt_eq_of_cover 3 (G V c) (fun t _ => flushed_eq V c t) cover

end Cert.KernelIdeal.Region1

end
-- ==== Proof.KEntry.lean ====
/-
  What the two regions' input arrays hold when their region is entered, at the ideal values.

  Every host operation of the program runs before the first region, and the first region writes only its own output,
  so both regions find the host stretches' results as the fold of those stretches over the launch memory. Read
  through the fold: the features are the launched argument; the three weights and the relation embeddings pass
  through a change of float format, the identity on the extended reals; the last relation's embedding row is row 3
  of the relation embeddings (a slice, flattened and unflattened again); each bias row is its `[256]` argument laid
  out as `[1, 256]`.
-/
import proofs.«167276_j48395691491487_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ) (ρ : Dev nD → PrngReg)

/-- The first region's entry contents are the five host stretches folded, in order, over the launch memory. -/
theorem fold5 (c : Dev nD) (b : Ref sig .tc) :
    V5 m ρ c b = after hostOps0_4 (after hostOps0_3 (after hostOps0_2 (after hostOps0_1 (after hostOps0 (W0 m ρ c)))))
      (Proc.devRef .tc b) := rfl

/-- The features are the launched argument. -/
theorem feats (c : Dev nD) :
    (V5 m ρ c main_arg0 : S50000x256.Idx → EReal) = (m ((c : Thread nD τ).loc main_arg0) : S50000x256.Idx → EReal) := by
  rw [fold5]; after_results_simp <;> rfl

/-- A `[256]` array laid out as `[1, 256]`, read at `(0, k)`, is its entry `k`. -/
theorem rowOf_apply {α : Type} (v : S256.Idx → α) (k : Fin 256) :
    shapeCast S1x256 v shapeCasts_S256_S1x256 (ix2 0 k) = v (ix1 k) :=
  shapeCast_apply v shapeCasts_S256_S1x256 (ix2 0 k) (ix1 k)
    (by rewrite [Shape.rowMajor_val_one, Shape.rowMajor_val_two]; show k.val = 0 * 256 + k.val; omega)

/-- The first average's weight: the launched argument, its change of float format the identity. -/
theorem weightO (c : Dev nD) :
    (V5 m ρ c main_v49 : S256x256.Idx → EReal) = (m ((c : Thread nD τ).loc main_arg6) : S256x256.Idx → EReal) := by
  rw [fold5]; after_results_simp <;> rfl
/-- The second average's weight. -/
theorem weightI (c : Dev nD) :
    (V5 m ρ c main_v50 : S256x256.Idx → EReal) = (m ((c : Thread nD τ).loc main_arg8) : S256x256.Idx → EReal) := by
  rw [fold5]; after_results_simp <;> rfl
/-- The self term's weight. -/
theorem weightS (c : Dev nD) :
    (V5 m ρ c main_v51 : S256x256.Idx → EReal) = (m ((c : Thread nD τ).loc main_arg10) : S256x256.Idx → EReal) := by
  rw [fold5]; after_results_simp <;> rfl

/-- The last relation's embedding row is row 3 of the relation embeddings. -/
theorem lastRel (c : Dev nD) (k : Fin 256) :
    (V5 m ρ c main_v48 : S1x256.Idx → EReal) (ix2 0 k) = (m ((c : Thread nD τ).loc main_arg1) : S4x256.Idx → EReal) (ix2 3 k) := by
  have e : (V5 m ρ c main_v48 : S1x256.Idx → EReal)
      = shapeCast S1x256 (shapeCast S256 (extractStridedSlice S1x256 ![3, 0]
          (m ((c : Thread nD τ).loc main_arg1) : S4x256.Idx → EReal) slices_S4x256_S1x256_3_0) shapeCasts_S1x256_S256)
          shapeCasts_S256_S1x256 := by
    rw [fold5]; after_results_simp <;> rfl
  rw [e, shapeCast_shapeCast]
  exact extractStridedSlice_apply ![3, 0] _ slices_S4x256_S1x256_3_0 (ix2 0 k) (ix2 3 k) (fun a => match a with
    | ⟨0, _⟩ => rfl
    | ⟨1, _⟩ => by show k.val = 0 + k.val; omega)

/-- The first bias row is its `[256]` argument. -/
theorem biasO (c : Dev nD) (k : Fin 256) :
    (V5 m ρ c main_v54 : S1x256.Idx → EReal) (ix2 0 k) = (m ((c : Thread nD τ).loc main_arg7) : S256.Idx → EReal) (ix1 k) := by
  have e : (V5 m ρ c main_v54 : S1x256.Idx → EReal)
      = shapeCast S1x256 (m ((c : Thread nD τ).loc main_arg7) : S256.Idx → EReal) shapeCasts_S256_S1x256 := by
    rw [fold5]; after_results_simp <;> rfl
  rw [e, rowOf_apply]
/-- The second bias row. -/
theorem biasI (c : Dev nD) (k : Fin 256) :
    (V5 m ρ c main_v55 : S1x256.Idx → EReal) (ix2 0 k) = (m ((c : Thread nD τ).loc main_arg9) : S256.Idx → EReal) (ix1 k) := by
  have e : (V5 m ρ c main_v55 : S1x256.Idx → EReal)
      = shapeCast S1x256 (m ((c : Thread nD τ).loc main_arg9) : S256.Idx → EReal) shapeCasts_S256_S1x256 := by
    rw [fold5]; after_results_simp <;> rfl
  rw [e, rowOf_apply]
/-- The self term's bias row. -/
theorem biasS (c : Dev nD) (k : Fin 256) :
    (V5 m ρ c main_v56 : S1x256.Idx → EReal) (ix2 0 k) = (m ((c : Thread nD τ).loc main_arg11) : S256.Idx → EReal) (ix1 k) := by
  have e : (V5 m ρ c main_v56 : S1x256.Idx → EReal)
      = shapeCast S1x256 (m ((c : Thread nD τ).loc main_arg11) : S256.Idx → EReal) shapeCasts_S256_S1x256 := by
    rw [fold5]; after_results_simp <;> rfl
  rw [e, rowOf_apply]

/-- The second region finds every array the first does not write as the first found it. -/
theorem fold6 (c : Dev nD) (b : Ref sig .tc) (hb : ∀ w, Pipeline.arrRef spec0 w ≠ b) : V6 m ρ c b = V5 m ρ c b :=
  W6_of_ne m ρ c b hb

/-- The relation embeddings the second region stages: the launched argument. -/
theorem relEmb (c : Dev nD) :
    (V6 m ρ c main_v53 : S4x256.Idx → EReal) = (m ((c : Thread nD τ).loc main_arg1) : S4x256.Idx → EReal) := by
  rw [fold6 m ρ c main_v53 (by decide), fold5]; after_results_simp <;> rfl
/-- The relation update's weight. -/
theorem weightR (c : Dev nD) :
    (V6 m ρ c main_v52 : S256x256.Idx → EReal) = (m ((c : Thread nD τ).loc main_arg12) : S256x256.Idx → EReal) := by
  rw [fold6 m ρ c main_v52 (by decide), fold5]; after_results_simp <;> rfl
/-- The relation update's bias row. -/
theorem biasR (c : Dev nD) (k : Fin 256) :
    (V6 m ρ c main_v57 : S1x256.Idx → EReal) (ix2 0 k) = (m ((c : Thread nD τ).loc main_arg13) : S256.Idx → EReal) (ix1 k) := by
  have e : (V6 m ρ c main_v57 : S1x256.Idx → EReal)
      = shapeCast S1x256 (m ((c : Thread nD τ).loc main_arg13) : S256.Idx → EReal) shapeCasts_S256_S1x256 := by
    rw [fold6 m ρ c main_v57 (by decide), fold5]; after_results_simp <;> rfl
  rw [e, rowOf_apply]

end Cert.KernelIdeal.Entry

end
-- ==== Proof.KFinal.lean ====
/-
  The tiled program's two result arrays as functions of the launch memory.

  The node result is the first region's output array: the second region does not write it. By the first region's
  value it is the layer's node output of the arrays that region finds; read through the host stretches these are the
  launched features, the two neighbourhood averages as the host stretches leave them (kept as they are), row 3 of the
  relation embeddings, the three weights and the three biases. The relation result is the second region's output
  array: the updated embeddings of the launched relation embeddings, weight and bias.
-/
import proofs.«167276_j48395691491487_1_alg».proof.Proof.KValue0
import proofs.«167276_j48395691491487_1_alg».proof.Proof.KValue1
import proofs.«167276_j48395691491487_1_alg».proof.Proof.KEntry

set_option maxRecDepth 16384

noncomputable section

namespace Cert.KernelIdeal.Final

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-- The node result after the run. -/
theorem node (c : Dev nD) :
    (W7 m ρ c (Proc.devRef .tc main_v58) : S50000x256.Idx → EReal)
      = Layer.nodeOut (m ((c : Thread nD τ).loc main_arg0)) (V5 m ρ c main_v22) (V5 m ρ c main_v45)
          (fun k => ((m ((c : Thread nD τ).loc main_arg1)) : S4x256.Idx → EReal) (ix2 3 k)) (m ((c : Thread nD τ).loc main_arg6)) (m ((c : Thread nD τ).loc main_arg8)) (m ((c : Thread nD τ).loc main_arg10))
          (fun k => ((m ((c : Thread nD τ).loc main_arg7)) : S256.Idx → EReal) (ix1 k)) (fun k => ((m ((c : Thread nD τ).loc main_arg9)) : S256.Idx → EReal) (ix1 k))
          (fun k => ((m ((c : Thread nD τ).loc main_arg11)) : S256.Idx → EReal) (ix1 k)) := by
  refine ((W7_of_ne m ρ c main_v58 (by decide)).trans ((W6_arr m ρ c 10).trans (Region0.final (V5 m ρ) c))).trans ?_
  unfold Region0.G
  rw [Entry.feats, Entry.weightO, Entry.weightI, Entry.weightS]
  have e1 : (fun k : Fin 256 => (V5 m ρ c main_v48 : S1x256.Idx → EReal) (ix2 0 k))
      = fun k => ((m ((c : Thread nD τ).loc main_arg1)) : S4x256.Idx → EReal) (ix2 3 k) := funext (Entry.lastRel m ρ c)
  have e2 : (fun k : Fin 256 => (V5 m ρ c main_v54 : S1x256.Idx → EReal) (ix2 0 k))
      = fun k => ((m ((c : Thread nD τ).loc main_arg7)) : S256.Idx → EReal) (ix1 k) := funext (Entry.biasO m ρ c)
  have e3 : (fun k : Fin 256 => (V5 m ρ c main_v55 : S1x256.Idx → EReal) (ix2 0 k))
      = fun k => ((m ((c : Thread nD τ).loc main_arg9)) : S256.Idx → EReal) (ix1 k) := funext (Entry.biasI m ρ c)
  have e4 : (fun k : Fin 256 => (V5 m ρ c main_v56 : S1x256.Idx → EReal) (ix2 0 k))
      = fun k => ((m ((c : Thread nD τ).loc main_arg11)) : S256.Idx → EReal) (ix1 k) := funext (Entry.biasS m ρ c)
  rw [e1, e2, e3, e4]

/-- The relation result after the run. -/
theorem rel (c : Dev nD) :
    (W7 m ρ c (Proc.devRef .tc main_v59) : S4x256.Idx → EReal)
      = Layer.relOut (m ((c : Thread nD τ).loc main_arg1)) (m ((c : Thread nD τ).loc main_arg12)) (fun k => ((m ((c : Thread nD τ).loc main_arg13)) : S256.Idx → EReal) (ix1 k)) := by
  refine ((W7_arr m ρ c 3).trans (Region1.final (V6 m ρ) c)).trans ?_
  unfold Region1.G
  rw [Entry.relEmb, Entry.weightR]
  have e1 : (fun k : Fin 256 => (V6 m ρ c main_v57 : S1x256.Idx → EReal) (ix2 0 k))
      = fun k => ((m ((c : Thread nD τ).loc main_arg13)) : S256.Idx → EReal) (ix1 k) := funext (Entry.biasR m ρ c)
  rw [e1]

end Cert.KernelIdeal.Final

end
-- ==== Proof.RefValue.lean ====
/-
  The reference's two results, read at one entry at the ideal values.

  The plain program closes each of its three products with that product's bias (a `[256]` row broadcast down the rows)
  and adds the self term to the sum of the two neighbourhood terms: entry `(p, q)` of its first result is
  `Layer.nodeAtGrouped` of the launched features, the two neighbourhood averages (kept closed here: the stage
  functions of the operations that compute them), row 3 of the relation embeddings, the three weights and the three
  biases. A `dot_general` contracting the left operand's columns with the right operand's rows is, at `(p, q)`, the
  sum over `k` of `left (p, k) * right (k, q)`. Entry `(p, q)` of its second result is `Layer.relAt`.
-/
import proofs.«167276_j48395691491487_1_alg».proof.Proof.Gen.ReferenceIdeal.Run
import proofs.«167276_j48395691491487_1_alg».proof.Proof.Gen.ReferenceIdeal.Read
import proofs.«167276_j48395691491487_1_alg».proof.Proof.Spec

noncomputable section

namespace Cert.ReferenceIdeal.RefValue

open Cert.ReferenceIdeal Cert.ReferenceIdeal.Read Idealize.ShloMosaic Idealize.ShloMosaic.ValueIdx
open scoped BigOperators

/-! The composed index functions of the read-at-an-index lemmas, at `(p, q)`. -/

theorem lidx23 (p : Fin 50000) (q k : Fin 256) : lidx_main_v23 (ix2 p q) k = (ix2 p k : S50000x256.Idx) :=
  funext fun a => Fin.ext (by match a with | ⟨0, _⟩ => rfl | ⟨1, _⟩ => rfl)
theorem ridx23 (p : Fin 50000) (q k : Fin 256) : ridx_main_v23 (ix2 p q) k = (ix2 k q : S256x256.Idx) :=
  funext fun a => Fin.ext (by match a with | ⟨0, _⟩ => rfl | ⟨1, _⟩ => rfl)
theorem lidx50 (p : Fin 50000) (q k : Fin 256) : lidx_main_v50 (ix2 p q) k = (ix2 p k : S50000x256.Idx) :=
  funext fun a => Fin.ext (by match a with | ⟨0, _⟩ => rfl | ⟨1, _⟩ => rfl)
theorem ridx50 (p : Fin 50000) (q k : Fin 256) : ridx_main_v50 (ix2 p q) k = (ix2 k q : S256x256.Idx) :=
  funext fun a => Fin.ext (by match a with | ⟨0, _⟩ => rfl | ⟨1, _⟩ => rfl)
theorem lidx60 (p : Fin 50000) (q k : Fin 256) : lidx_main_v60 (ix2 p q) k = (ix2 p k : S50000x256.Idx) :=
  funext fun a => Fin.ext (by match a with | ⟨0, _⟩ => rfl | ⟨1, _⟩ => rfl)
theorem ridx60 (p : Fin 50000) (q k : Fin 256) : ridx_main_v60 (ix2 p q) k = (ix2 k q : S256x256.Idx) :=
  funext fun a => Fin.ext (by match a with | ⟨0, _⟩ => rfl | ⟨1, _⟩ => rfl)

theorem bidx25 (p : Fin 50000) (q : Fin 256) : idx_main_v24 (idx_main_v25 (ix2 p q)) = (ix1 q : S256.Idx) :=
  funext fun a => Fin.ext (by match a with | ⟨0, _⟩ => rfl)
theorem bidx52 (p : Fin 50000) (q : Fin 256) : idx_main_v51 (idx_main_v52 (ix2 p q)) = (ix1 q : S256.Idx) :=
  funext fun a => Fin.ext (by match a with | ⟨0, _⟩ => rfl)
theorem bidx62 (p : Fin 50000) (q : Fin 256) : idx_main_v61 (idx_main_v62 (ix2 p q)) = (ix1 q : S256.Idx) :=
  funext fun a => Fin.ext (by match a with | ⟨0, _⟩ => rfl)

/-- Column `k` of the last relation's embedding, read through the slice, the flattening and the two broadcasts, is
    entry `(3, k)` of the relation embeddings. -/
theorem relidx (p : Fin 50000) (k : Fin 256) :
    idx_main_v55 (idx_main_v56 (idx_main_v57 (idx_main_v58 (ix2 p k : S50000x256.Idx)))) = (ix2 3 k : S4x256.Idx) :=
  funext fun a => Fin.ext (by
    match a with
    | ⟨0, _⟩ => rfl
    | ⟨1, _⟩ => show k.val % 256 = k.val; have := k.isLt; omega)

theorem lidx65 (p : Fin 4) (q k : Fin 256) : lidx_main_v65 (ix2 p q) k = (ix2 p k : S4x256.Idx) :=
  funext fun a => Fin.ext (by match a with | ⟨0, _⟩ => rfl | ⟨1, _⟩ => rfl)
theorem ridx65 (p : Fin 4) (q k : Fin 256) : ridx_main_v65 (ix2 p q) k = (ix2 k q : S256x256.Idx) :=
  funext fun a => Fin.ext (by match a with | ⟨0, _⟩ => rfl | ⟨1, _⟩ => rfl)
theorem bidx67 (p : Fin 4) (q : Fin 256) : idx_main_v66 (idx_main_v67 (ix2 p q)) = (ix1 q : S256.Idx) :=
  funext fun a => Fin.ext (by match a with | ⟨0, _⟩ => rfl)

/-- Entry `(p, q)` of the reference's node output. -/
theorem node_apply (x0 : (⟨S50000x256, .f32⟩ : BufTy).Contents (Elt Ideal)) (x1 : (⟨S4x256, .f32⟩ : BufTy).Contents (Elt Ideal))
    (x2 x3 x4 x5 : (⟨S200000, .i32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (x10 : (⟨S256x256, .f32⟩ : BufTy).Contents (Elt Ideal)) (x11 : (⟨S256, .f32⟩ : BufTy).Contents (Elt Ideal))
    (p : Fin 50000) (q : Fin 256) :
    val_main_v64 (F := Ideal) x0 x1 x2 x3 x4 x5 x6 x7 x8 x9 x10 x11 (ix2 p q)
      = Layer.nodeAtGrouped x0 (val_main_v22 (F := Ideal) x0 x1 x2 x3) (val_main_v49 (F := Ideal) x0 x1 x4 x5)
          (fun k => x1 (ix2 3 k)) x6 x8 x10 (fun k => x7 (ix1 k)) (fun k => x9 (ix1 k)) (fun k => x11 (ix1 k)) p q := by
  rw [val_main_v64_apply, val_main_v63_apply, val_main_v54_apply, val_main_v26_apply, val_main_v53_apply,
    val_main_v60_apply, val_main_v23_apply, val_main_v50_apply,
    val_main_v62_apply, val_main_v61_apply, val_main_v25_apply, val_main_v24_apply, val_main_v52_apply, val_main_v51_apply]
  simp only [val_main_v59_apply, val_main_v58_apply, val_main_v57_apply, val_main_v56_apply, val_main_v55_apply,
    lidx23, ridx23, lidx50, ridx50, lidx60, ridx60, bidx25, bidx52, bidx62, relidx,
    Ideal.addf_def, Ideal.subf_def]
  rfl

/-- Entry `(p, q)` of the reference's updated relation embeddings. -/
theorem rel_apply (x1 : (⟨S4x256, .f32⟩ : BufTy).Contents (Elt Ideal)) (x12 : (⟨S256x256, .f32⟩ : BufTy).Contents (Elt Ideal))
    (x13 : (⟨S256, .f32⟩ : BufTy).Contents (Elt Ideal)) (p : Fin 4) (q : Fin 256) :
    val_main_v68 (F := Ideal) x1 x12 x13 (ix2 p q) = Layer.relAt x1 x12 (fun k => x13 (ix1 k)) p q := by
  rw [val_main_v68_apply, val_main_v65_apply, val_main_v67_apply, val_main_v66_apply]
  simp only [lidx65, ridx65, bidx67, Ideal.addf_def]
  rfl

end Cert.ReferenceIdeal.RefValue

end
-- ==== Proof.Avg.lean ====
/-
  The two neighbourhood averages are the same arrays in both programs.

  Both programs compute each neighbourhood average with the same host operations on the same arguments (a gather of
  the source rows less the relation's embedding, summed into the destination rows, divided by the clamped count of
  incoming edges). The tiled program's array for it, as its host stretches leave it when the first region is entered,
  is the plain program's stage function of the launched arguments: the same term on both sides.
-/
import proofs.«167276_j48395691491487_1_alg».proof.Proof.KEntry
import proofs.«167276_j48395691491487_1_alg».proof.Proof.Gen.ReferenceIdeal.Read

set_option maxRecDepth 16384

noncomputable section

namespace Cert.Bridge

open Idealize.ShloMosaic Idealize.ShloMosaic.TcCoe Idealize.ShloMosaic.ValueIdx Idealize.ShloMosaic.StableHlo
open Idealize.SL.Sem

variable (m : (ℓ : Loc Cert.KernelIdeal.nD Cert.KernelIdeal.τ Cert.KernelIdeal.sig) → Buf (Elt Ideal) ℓ) (ρ : Dev Cert.KernelIdeal.nD → PrngReg)

/-- The first neighbourhood average the tiled program stages is the plain program's, of the same arguments. -/
theorem avg0 (c : Dev Cert.KernelIdeal.nD) :
    (Cert.KernelIdeal.Gen.V5 m ρ c Cert.KernelIdeal.main_v22 : Cert.KernelIdeal.S50000x256.Idx → EReal)
      = Cert.ReferenceIdeal.Read.val_main_v22 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  rw [Cert.KernelIdeal.Entry.fold5]
  after_results_simp
  rfl

/-- The second neighbourhood average likewise. -/
theorem avg1 (c : Dev Cert.KernelIdeal.nD) :
    (Cert.KernelIdeal.Gen.V5 m ρ c Cert.KernelIdeal.main_v45 : Cert.KernelIdeal.S50000x256.Idx → EReal)
      = Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  rw [Cert.KernelIdeal.Entry.fold5]
  after_results_simp
  rfl

end Cert.Bridge

end
-- ==== Proof.Bridge.lean ====
/-
  The two programs' results are the same arrays.

  The two neighbourhood averages are the same arrays in both programs (`avg0`, `avg1`). Given that, the plain program's
  node result at `(p, q)` is the six-term sum in the grouped order, the tiled program's is the same six terms added
  left to right, and addition on the extended reals is commutative and associative (`Layer.nodeAt_eq_grouped`); the
  relation results are the same product and bias.
-/
import proofs.«167276_j48395691491487_1_alg».proof.Proof.KFinal
import proofs.«167276_j48395691491487_1_alg».proof.Proof.RefValue
import proofs.«167276_j48395691491487_1_alg».proof.Proof.Avg

set_option maxRecDepth 16384

noncomputable section

namespace Cert.Bridge

open Idealize.ShloMosaic Idealize.ShloMosaic.TcCoe Idealize.ShloMosaic.ValueIdx Idealize.ShloMosaic.StableHlo
open Idealize.SL.Sem

variable (m : (ℓ : Loc Cert.KernelIdeal.nD Cert.KernelIdeal.τ Cert.KernelIdeal.sig) → Buf (Elt Ideal) ℓ) (ρ : Dev Cert.KernelIdeal.nD → PrngReg)

variable (m' : (ℓ : Loc Cert.ReferenceIdeal.nD Cert.ReferenceIdeal.τ Cert.ReferenceIdeal.sig) → Buf (Elt Ideal) ℓ)

/-- The plain program's node result, from arguments that agree with the tiled program's, is the tiled program's. -/
theorem node (c : Dev Cert.KernelIdeal.nD)
    (hag : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))) :
    Cert.ReferenceIdeal.Value.res_main_v64 (F := Ideal) m' c = Cert.KernelIdeal.Gen.W7 m ρ c (Proc.devRef .tc Cert.KernelIdeal.main_v58) := by
  refine Eq.trans ?_ (Cert.KernelIdeal.Final.node m ρ c).symm
  rw [Cert.ReferenceIdeal.Read.val_main_v64_eq]
  obtain ⟨h0, h1, h2, h3, h4, h5, h6, h7, h8, h9, h10, h11, h12, h13⟩ := hag
  rw [h0, h1, h2, h3, h4, h5, h6, h7, h8, h9, h10, h11]
  funext i
  obtain ⟨p, q, rfl⟩ : ∃ (p : Fin 50000) (q : Fin 256), i = ix2 p q := ⟨i 0, i 1, eq_ix2 i⟩
  rw [Cert.ReferenceIdeal.RefValue.node_apply, Layer.nodeOut_ix2, Layer.nodeAt_eq_grouped, avg0, avg1]

/-- The plain program's relation result likewise. -/
theorem rel (c : Dev Cert.KernelIdeal.nD)
    (hag : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))) :
    Cert.ReferenceIdeal.Read.val_main_v68 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
      = Cert.KernelIdeal.Gen.W7 m ρ c (Proc.devRef .tc Cert.KernelIdeal.main_v59) := by
  refine Eq.trans ?_ (Cert.KernelIdeal.Final.rel m ρ c).symm
  obtain ⟨h0, h1, h2, h3, h4, h5, h6, h7, h8, h9, h10, h11, h12, h13⟩ := hag
  rw [h1, h12, h13]
  funext i
  obtain ⟨p, q, rfl⟩ : ∃ (p : Fin 4) (q : Fin 256), i = ix2 p q := ⟨i 0, i 1, eq_ix2 i⟩
  rw [Cert.ReferenceIdeal.RefValue.rel_apply, Layer.relOut_ix2]

end Cert.Bridge

end
-- ==== Proof.lean ====
/-
  A graph layer with two edge relations: for each relation, every node averages over its incoming edges the source
  node's features less the relation's embedding (a sum into the destination rows divided by the in-degree clamped at
  one); the node's output row is the two averages and the node's own features less the last relation's embedding, each
  times a `256 × 256` weight plus a bias row, all added; the relation embeddings are updated by a fourth weight and bias.

  The tiled program computes the averages with host operations and then runs two kernels: one over twenty-five blocks
  of `2000` rows that does the three products and adds the six terms left to right, one that does the relation update
  in a single block. The plain program does everything with host operations and groups the six terms differently. At
  the ideal values a product is the textbook sum over the contracted index on both sides, a change of float format is
  the identity, and the two groupings of six extended reals agree because addition there is commutative and
  associative for all summands (nothing about finiteness is used): the two results are the same arrays, entry by entry.

  That each tiled program terminates without a fault and leaves its arguments alone is the generated frame; for the
  plain program it is its generated run with the two results dropped. The tiled program at the ideal values is the
  word-level program's own text read at those values (no operation was rewritten), so that claim is the trivial one.
-/
import proofs.«167276_j48395691491487_1_alg».proof.Defs
import proofs.«167276_j48395691491487_1_alg».proof.Proof.Gen.Kernel
import proofs.«167276_j48395691491487_1_alg».proof.Proof.Gen.Kernel.Frame
import proofs.«167276_j48395691491487_1_alg».proof.Proof.Gen.KernelIdeal
import proofs.«167276_j48395691491487_1_alg».proof.Proof.Gen.KernelIdeal.Frame
import proofs.«167276_j48395691491487_1_alg».proof.Proof.Gen.ReferenceIdeal
import proofs.«167276_j48395691491487_1_alg».proof.Proof.Gen.ReferenceIdeal.Run
import proofs.«167276_j48395691491487_1_alg».proof.Proof.Gen.ReferenceIdeal.Read
import proofs.«167276_j48395691491487_1_alg».proof.Proof.Gen.Pre_finite_inputs
import proofs.«167276_j48395691491487_1_alg».proof.Proof.KRun
import proofs.«167276_j48395691491487_1_alg».proof.Proof.Bridge

noncomputable section

namespace Cert.Proof

open Idealize.ShloMosaic Idealize.ShloMosaic.TcCoe Idealize.SL.Sem

/-- The word-level tiled program terminates, faults nowhere and leaves its arguments as launched. -/
theorem frame_k : @Cert.frame_Kernel Cert.Kernel.Gen.facts Cert.Pre_finite_inputs.Gen.facts :=
  fun m ρ _ => Cert.Kernel.Gen.frame m ρ

/-- So does the tiled program at the ideal values. -/
theorem frame_ki : @Cert.frame_KernelIdeal Cert.KernelIdeal.Gen.facts Cert.Pre_finite_inputs.Gen.facts :=
  fun m ρ _ => Cert.KernelIdeal.Gen.frame m ρ

/-- And the plain program: its run, the two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- From memories that agree on the arguments both programs end with the same two result arrays: the tiled program's
    are what its last segment boundary holds, and the plain program's run ends at those very arrays. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W7 m ρ c (Proc.devRef .tc Cert.KernelIdeal.main_v58),
    fun c => Cert.KernelIdeal.Gen.W7 m ρ c (Proc.devRef .tc Cert.KernelIdeal.main_v59),
    Cert.KernelIdeal.Results.run_results m ρ, ?_⟩
  exact (θ_run Cert.ReferenceIdeal.defs _ _).mono
    (fun _ h c => ⟨(h c).1.trans (Cert.Bridge.node m ρ m' c (hagree c)),
      (h c).2.1.trans ((Cert.ReferenceIdeal.Read.val_main_v68_eq _ _ _).trans (Cert.Bridge.rel m ρ m' c (hagree c))), (h c).2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
